-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x176 : Shape := ⟨2, ![8192, 176]⟩
abbrev S_ : Shape := ⟨0, ![]⟩

class Facts : Prop where
  bcast_S_S8192x176 : S_.BroadcastsInDim S8192x176 (![] : Fin 0 → Fin S8192x176.rank)
  reducesTo_S8192x176_S_d0_1 : S8192x176.ReducesTo [0, 1] S_
  h_S_ : 0 < S_.numel

variable [Facts]

def fn {F : FTy → Type} [FloatOps F] (main_arg0 : FVec F S8192x176 .f32) : IVec S_ 1 :=
  let main_v0 : FVec F S8192x176 .f32 := Host.absf main_arg0
  let main_cst : FVec F S_ .f32 := constant S_ .f32 0x7F800000#32
  let main_v1 : FVec F S8192x176 .f32 := broadcastInDim S8192x176 ![] bcast_S_S8192x176 main_cst
  let main_v2 : IVec S8192x176 1 := cmpf .olt main_v0 main_v1
  let main_c : IVec S_ 1 := constantI S_ 1 1#1
  let main_v3 : IVec S_ 1 := (fun x v => Host.reduce IntOp.andi x v reducesTo_S8192x176_S_d0_1 h_S_) main_v2 main_c
  main_v3
-- ==== Kernel.lean ====
abbrev S8192x176 : Shape := ⟨2, ![8192, 176]⟩
abbrev S176x176 : Shape := ⟨2, ![176, 176]⟩
abbrev S_ : Shape := ⟨0, ![]⟩
abbrev S8192x176x176 : Shape := ⟨3, ![8192, 176, 176]⟩
abbrev S64x176 : Shape := ⟨2, ![64, 176]⟩
abbrev S64x176x176 : Shape := ⟨3, ![64, 176, 176]⟩
abbrev S64x176x1 : Shape := ⟨3, ![64, 176, 1]⟩
abbrev S1x176x176 : Shape := ⟨3, ![1, 176, 176]⟩

abbrev nBuf : Space → Nat
  | .hbm => 9
  | .vmem => 5
  | .smem => 0
  | _ => 0

abbrev bufTy : (tb : Table) → Fin (tcTables nBuf tb) → BufTy
  | .hbm, ⟨0, _⟩ => ⟨S8192x176, .f32⟩
  | .hbm, ⟨1, _⟩ => ⟨S176x176, .i32⟩
  | .hbm, ⟨2, _⟩ => ⟨S176x176, .i32⟩
  | .hbm, ⟨3, _⟩ => ⟨S_, .i32⟩
  | .hbm, ⟨4, _⟩ => ⟨S176x176, .i32⟩
  | .hbm, ⟨5, _⟩ => ⟨S176x176, .i32⟩
  | .hbm, ⟨6, _⟩ => ⟨S176x176, .i1⟩
  | .hbm, ⟨7, _⟩ => ⟨S176x176, .f32⟩
  | .hbm, ⟨8, _⟩ => ⟨S8192x176x176, .f32⟩
  | .local _ .vmem, ⟨0, _⟩ => ⟨S64x176, .f32⟩
  | .local _ .vmem, ⟨1, _⟩ => ⟨S64x176, .f32⟩
  | .local _ .vmem, ⟨2, _⟩ => ⟨S176x176, .f32⟩
  | .local _ .vmem, ⟨3, _⟩ => ⟨S64x176x176, .f32⟩
  | .local _ .vmem, ⟨4, _⟩ => ⟨S64x176x176, .f32⟩
  | _, _ => ⟨S8192x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S176x176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x176x176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S176x176 : S_.BroadcastsInDim S176x176 (![] : Fin 0 → Fin S176x176.rank)
  inb_S64x176_S64x176_0_0 : ∀ a, (![0, 0] : Fin 2 → Nat) a + S64x176.size a ≤ S64x176.size a
  h_S64x176 : 0 < S64x176.numel
  inb_S176x176_S176x176_0_0 : ∀ a, (![0, 0] : Fin 2 → Nat) a + S176x176.size a ≤ S176x176.size a
  h_S176x176 : 0 < S176x176.numel
  shapeCasts_S176x176_S176x176 : S176x176.ShapeCasts S176x176
  shapeCasts_S64x176_S64x176x1 : S64x176.ShapeCasts S64x176x1
  shapeCasts_S176x176_S1x176x176 : S176x176.ShapeCasts S1x176x176
  broadcasts_S64x176x1_S64x176x176 : S64x176x1.Broadcasts S64x176x176
  broadcasts_S1x176x176_S64x176x176 : S1x176x176.Broadcasts S64x176x176
  inb_S64x176x176_S64x176x176_0_0_0 : ∀ a, (![0, 0, 0] : Fin 3 → Nat) a + S64x176x176.size a ≤ S64x176x176.size a
  h_S64x176x176 : 0 < S64x176x176.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x176.size a ≤ S8192x176.size a
  hwx0_0 : ∀ i : grid0.Coords, EltTy.bits .f32 = 32 ∨ (Rect.block (s := S8192x176) S64x176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S176x176.size a ≤ S176x176.size a
  hwx0_1 : ∀ i : grid0.Coords, EltTy.bits .f32 = 32 ∨ (Rect.block (s := S176x176) S176x176.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x176x176.size a ≤ S8192x176x176.size a
  hwx0_2 : ∀ i : grid0.Coords, EltTy.bits .f32 = 32 ∨ (Rect.block (s := S8192x176x176) S64x176x176.size (cc0_transform_2 i) (hinb0_2 i)).WholeWords (EltTy.packing .f32)

variable [Facts₀]

abbrev win0_0 : Pipeline.Window sig grid0 :=
  Pipeline.Window.ofSpec (Memref.whole main_arg0) S64x176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S176x176.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x176x176.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x176 : Shape := ⟨2, ![8192, 176]⟩
abbrev S176x176 : Shape := ⟨2, ![176, 176]⟩
abbrev S_ : Shape := ⟨0, ![]⟩
abbrev S8192x1x176 : Shape := ⟨3, ![8192, 1, 176]⟩
abbrev S1x176x176 : Shape := ⟨3, ![1, 176, 176]⟩
abbrev S8192x176x176 : Shape := ⟨3, ![8192, 176, 176]⟩

abbrev nBuf : Space → Nat
  | .hbm => 13
  | .vmem => 0
  | .smem => 0
  | _ => 0

abbrev bufTy : (tb : Table) → Fin (tcTables nBuf tb) → BufTy
  | .hbm, ⟨0, _⟩ => ⟨S8192x176, .f32⟩
  | .hbm, ⟨1, _⟩ => ⟨S176x176, .i32⟩
  | .hbm, ⟨2, _⟩ => ⟨S176x176, .i32⟩
  | .hbm, ⟨3, _⟩ => ⟨S_, .i32⟩
  | .hbm, ⟨4, _⟩ => ⟨S176x176, .i32⟩
  | .hbm, ⟨5, _⟩ => ⟨S176x176, .i32⟩
  | .hbm, ⟨6, _⟩ => ⟨S176x176, .i1⟩
  | .hbm, ⟨7, _⟩ => ⟨S176x176, .f32⟩
  | .hbm, ⟨8, _⟩ => ⟨S8192x1x176, .f32⟩
  | .hbm, ⟨9, _⟩ => ⟨S1x176x176, .f32⟩
  | .hbm, ⟨10, _⟩ => ⟨S8192x176x176, .f32⟩
  | .hbm, ⟨11, _⟩ => ⟨S8192x176x176, .f32⟩
  | .hbm, ⟨12, _⟩ => ⟨S8192x176x176, .f32⟩
  | _, _ => ⟨S8192x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  bcast_S_S176x176 : S_.BroadcastsInDim S176x176 (![] : Fin 0 → Fin S176x176.rank)
  bcast_S8192x176_S8192x1x176_0_2 : S8192x176.BroadcastsInDim S8192x1x176 (![0, 2] : Fin 2 → Fin S8192x1x176.rank)
  bcast_S176x176_S1x176x176_1_2 : S176x176.BroadcastsInDim S1x176x176 (![1, 2] : Fin 2 → Fin S1x176x176.rank)
  bcast_S8192x1x176_S8192x176x176_0_1_2 : S8192x1x176.BroadcastsInDim S8192x176x176 (![0, 1, 2] : Fin 3 → Fin S8192x176x176.rank)
  bcast_S1x176x176_S8192x176x176_0_1_2 : S1x176x176.BroadcastsInDim S8192x176x176 (![0, 1, 2] : Fin 3 → Fin S8192x176x176.rank)

variable [Facts₀]

class Facts : Prop extends Facts₀ where

variable [Facts]
-- ==== Proof.DiagSpec.lean ====
/-
  The diagonal embedding, as mathematics. An input matrix x of shape [8192, 176] is sent to the rank-3 array whose
  entry (b, i, j) is x[b, ·] times the entry (i, j) of a 176 × 176 matrix e. One program reads x at column i,

      entry (b, i, j) = x[b, i] · e[i, j],

  the other at column j,

      entry (b, i, j) = x[b, j] · e[i, j].

  The two agree as soon as e vanishes off its diagonal: on the diagonal i = j the two factors are the same entry of x,
  and off it both products are some extended real times 0, which is 0 whatever the other factor is (in the extended
  reals 0 · (±∞) = 0, so no finiteness of x is needed). The matrix e that both programs build is the comparison of a
  row counter with a column counter, read as a number: its entry (i, j) is the one-bit word "i + 0 = j" over 32-bit
  words, widened to the real 0 or 1. For i ≠ j below 176 the two words differ, so the entry is 0.
-/
import Idealize.ShloMosaic.PureOps.Ideal
import Idealize.ShloMosaic.Lib.ValueIdx

noncomputable section

namespace Cert.DiagSpec

open Idealize.ShloMosaic Idealize.ShloMosaic.ValueIdx

/-- The input matrix's shape, the square matrix's, and the result's. -/
abbrev Sx : Shape := ⟨2, ![8192, 176]⟩
abbrev Se : Shape := ⟨2, ![176, 176]⟩
abbrev So : Shape := ⟨3, ![8192, 176, 176]⟩
abbrev S0 : Shape := ⟨0, ![]⟩

/-- Entry (b, i, j) is x[b, i] · e[i, j]: the row of x is spread along the LAST axis. -/
def spreadLast (x : Sx.Idx → EReal) (e : Se.Idx → EReal) : So.Idx → EReal :=
  fun y => x (ix2 (y 0) (y 1)) * e (ix2 (y 1) (y 2))

/-- Entry (b, i, j) is x[b, j] · e[i, j]: the row of x is spread along the MIDDLE axis. -/
def spreadMiddle (x : Sx.Idx → EReal) (e : Se.Idx → EReal) : So.Idx → EReal :=
  fun y => x (ix2 (y 0) (y 2)) * e (ix2 (y 1) (y 2))

/-- THE LAW: against a matrix that vanishes off its diagonal the two spreads are one array. On the diagonal the two
    read the same entry of x; off it both are a product with 0. -/
theorem spreadLast_eq_spreadMiddle (x : Sx.Idx → EReal) (e : Se.Idx → EReal)
    (he : ∀ i j : Fin 176, i ≠ j → e (ix2 i j) = 0) : spreadLast x e = spreadMiddle x e := by
  funext y
  unfold spreadLast spreadMiddle
  by_cases h : y 1 = y 2
  · rw [h]
  · rw [he (y 1) (y 2) h, mul_zero, mul_zero]

/-- The comparison word of the counters i and j: "i + 0 = j" over 32-bit words. Distinct counters below 176 give
    distinct words, so the comparison is the zero bit. -/
theorem counters_ne {i j : Fin 176} (h : i ≠ j) :
    IntOp.cmpi .eq (IntOp.addi (BitVec.ofNat 32 i.val) 0#32) (BitVec.ofNat 32 j.val) = 0#1 := by
  have hne : ¬ (IntOp.addi (BitVec.ofNat 32 i.val) 0#32 = BitVec.ofNat 32 j.val) := by
    intro e
    have e' := congrArg BitVec.toNat e
    simp only [IntOp.addi, BitVec.add_zero, BitVec.toNat_ofNat] at e'
    have hi := i.isLt
    have hj := j.isLt
    exact h (Fin.ext (by omega))
  unfold IntOp.cmpi
  simp only [beq_eq_false_iff_ne.mpr hne]
  rfl

/-- The square matrix both programs build: the row counter plus a broadcast zero word, compared for equality with the
    column counter, the one-bit result read as a number. (The broadcast's side condition is a proposition: any proof of
    it gives the same matrix.) -/
def counterMatrix (hb : S0.BroadcastsInDim Se (![] : Fin 0 → Fin Se.rank)) : Se.Idx → EReal :=
  uitofp (F := Ideal) .f32
    (cmpi .eq (addi (iotaInDim Se 32 0) (broadcastInDim Se ![] hb (constantI S0 32 0#32))) (iotaInDim Se 32 1))

/-- It vanishes off the diagonal. -/
theorem counterMatrix_off (hb : S0.BroadcastsInDim Se (![] : Fin 0 → Fin Se.rank)) (i j : Fin 176) (h : i ≠ j) :
    counterMatrix hb (ix2 i j) = 0 := by
  show (((IntOp.cmpi .eq (IntOp.addi (BitVec.ofNat 32 i.val) 0#32) (BitVec.ofNat 32 j.val)).toNat : ℝ) : EReal) = 0
  rw [counters_ne h]
  simp

end Cert.DiagSpec

end
-- ==== Proof.RefMiddle.lean ====
/-
  The reference's result, read at an index. Its last operation multiplies two rank-3 arrays entry by entry: the input
  matrix x broadcast so that entry (b, i, j) is x[b, j] (through a middle axis of extent 1, repeated 176 times), and
  the square counter matrix broadcast along the first axis, entry (b, i, j) being its entry (i, j). So the result is
  x spread along the middle axis against that matrix.
-/
import proofs.«159785_j41180146434078_1_alg».proof.Proof.Gen.ReferenceIdeal.Read
import proofs.«159785_j41180146434078_1_alg».proof.Proof.DiagSpec
import Idealize.ShloMosaic.Lib.ValueIdx

noncomputable section

namespace Cert.ReferenceIdeal.Middle

open Cert.ReferenceIdeal Cert.ReferenceIdeal.Gen Cert.ReferenceIdeal.Read Cert.DiagSpec
open Idealize.ShloMosaic Idealize.ShloMosaic.ValueIdx

/-- The square matrix the reference builds is the counter matrix. -/
theorem matrix_eq : (val_main_v5 (F := Ideal) : Se.Idx → EReal) = counterMatrix bcast_S_S176x176 := rfl

/-- Through the two broadcasts of x, entry (b, i, j) reads x at (b, j). -/
theorem x_index (y : S8192x176x176.Idx) : idx_main_v6 (idx_main_v8 y) = ix2 (y 0) (y 2) :=
  funext fun a => Fin.ext (by match a with | ⟨0, _⟩ => rfl | ⟨1, _⟩ => rfl)

/-- Through the two broadcasts of the square matrix, entry (b, i, j) reads it at (i, j). -/
theorem matrix_index (y : S8192x176x176.Idx) : idx_main_v7 (idx_main_v9 y) = ix2 (y 1) (y 2) :=
  funext fun a => Fin.ext (by match a with | ⟨0, _⟩ => rfl | ⟨1, _⟩ => rfl)

/-- THE REFERENCE'S RESULT is x spread along the middle axis against the counter matrix. -/
theorem result_eq (x : Sx.Idx → EReal) :
    val_main_v10 (F := Ideal) x = spreadMiddle x (counterMatrix bcast_S_S176x176) := by
  funext y
  rw [val_main_v10_apply, val_main_v8_apply, val_main_v6_apply, val_main_v9_apply, val_main_v7_apply,
    x_index, matrix_index, matrix_eq]
  rfl

end Cert.ReferenceIdeal.Middle

end
-- ==== Proof.KernelLast.lean ====
/-
  The kernel's result, read off its run. The grid has 128 points; point t stages rows 64 t … 64 t + 63 of the input
  matrix x (a [64, 176] block), the whole square matrix e (one [176, 176] block, the same at every point), and writes
  back block t of the result, a [64, 176, 176] slab. The body multiplies, entry by entry, the x block spread along the
  last axis with the square matrix spread along the first: slab entry (b, i, j) is xblock[b, i] · e[i, j]. Put back at
  rows 64 t + b this is, for every point, the restriction to its slab of ONE array, x spread along the last axis
  against e; the 128 slabs tile the result, so the whole array after the run is that. The square matrix the region
  finds was written by the host operations before it: it is the counter matrix.
-/
import proofs.«159785_j41180146434078_1_alg».proof.Proof.Gen.KernelIdeal.Value
import proofs.«159785_j41180146434078_1_alg».proof.Proof.DiagSpec
import Idealize.ShloMosaic.Lib.Pipeline.Value
import Idealize.ShloMosaic.Lib.ValueIdx
import Idealize.ShloMosaic.Lib.StableHlo.Run

set_option maxRecDepth 16384

noncomputable section

namespace Cert.KernelIdeal.Last

open Cert.KernelIdeal Cert.KernelIdeal.Gen Cert.DiagSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The body's product at an index -/

/-- The slab the body leaves from its two loads: entry (b, i, j) is the first load at (b, i) times the second at
    (i, j). -/
def slab (P0 : Vec Ideal S64x176 .f32) (P1 : Vec Ideal S176x176 .f32) : Vec Ideal S64x176x176 .f32 :=
  fun y => P0 (ix2 (n0 := 64) (n1 := 176) (y 0) (y 1)) * P1 (ix2 (n0 := 176) (n1 := 176) (y 1) (y 2))

/-- The body's one store writes that slab. -/
theorem payload_eq (P0 : Vec Ideal S64x176 .f32) (P1 : Vec Ideal S176x176 .f32) : k0_pay1 P0 P1 = slab P0 P1 := by
  funext y
  refine (Value.piece2_0 P0 P1 y).trans ?_
  show P0 (Value.ix2_0 (r0_2.idx y)) * P1 (Value.ix2_1 (r0_2.idx y)) = slab P0 P1 y
  have e0 : Value.ix2_0 (r0_2.idx y) = ix2 (n0 := 64) (n1 := 176) (y 0) (y 1) :=
    funext fun a => Fin.ext (by
      match a with
      | ⟨0, _⟩ => show 0 + 1 * (y 0).val = (y 0).val; omega
      | ⟨1, _⟩ => show 0 + 1 * (y 1).val = (y 1).val; omega)
  have e1 : Value.ix2_1 (r0_2.idx y) = ix2 (n0 := 176) (n1 := 176) (y 1) (y 2) :=
    funext fun a => Fin.ext (by
      match a with
      | ⟨0, _⟩ => show 0 + 1 * (y 1).val = (y 1).val; omega
      | ⟨1, _⟩ => show 0 + 1 * (y 2).val = (y 2).val; omega)
  rw [e0, e1]
  rfl

/-- A slab entry is an entry of the spread array as soon as its two factors are the array's two factors there. -/
theorem slab_eq_spread (x : Sx.Idx → EReal) (e : Se.Idx → EReal) (P0 : Vec Ideal S64x176 .f32)
    (P1 : Vec Ideal S176x176 .f32) (y : S64x176x176.Idx) (z : So.Idx)
    (h0 : P0 (ix2 (n0 := 64) (n1 := 176) (y 0) (y 1)) = x (ix2 (z 0) (z 1)))
    (h1 : P1 (ix2 (n0 := 176) (n1 := 176) (y 1) (y 2)) = e (ix2 (z 1) (z 2))) :
    slab P0 P1 y = spreadLast x e z := by
  unfold slab spreadLast
  rw [h0, h1]

/-! ## The square matrix as the region finds it -/

/-- The host operations before the region leave the counter matrix in the second window's array. -/
theorem entry_matrix (c : Dev nD) :
    (V m c main_v5 : Se.Idx → EReal) = counterMatrix bcast_S_S176x176 := by
  dsimp only [Gen.V, Gen.hostOps0]
  after_results
  rfl

/-! ## Blocks to the array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 128 points: the x window's row block moves with the result's slab, every other
    block coordinate is 0, and the slab index is the point's number. -/
theorem index_facts : ∀ t : Fin cfg0.N,
    win0_0.index t (0 : Fin 2) = win0_2.index t (0 : Fin 3)
    ∧ win0_0.index t (1 : Fin 2) = 0
    ∧ win0_1.index t (0 : Fin 2) = 0
    ∧ win0_1.index t (1 : Fin 2) = 0
    ∧ win0_2.index t (1 : Fin 3) = 0
    ∧ win0_2.index t (2 : Fin 3) = 0
    ∧ win0_2.index t (0 : Fin 3) ≤ 127 :=
  (by decide +kernel : ∀ t : Fin grid0.N, _)

/-- Every slab is some point's. -/
theorem index_onto : ∀ q : Fin 128, ∃ t : Fin cfg0.N, win0_2.index t = ![q.val, 0, 0] :=
  (by decide +kernel : ∀ q : Fin 128, ∃ t : Fin grid0.N, win0_2.index t = ![q.val, 0, 0])

/-- WHAT POINT t WRITES BACK is slab t of x spread along the last axis against the square matrix, both as the region
    finds them. -/
theorem flushed_eq (c : Dev nD) (t : Fin cfg0.N) :
    (dats m 0 c).flushed 2 t
      = ((cfg0.win 2).blk t).view.read (Elt Ideal) (spreadLast (V m c main_arg0) (V m c main_v5)) := by
  show (cfg0.win 2).cut (grid0.coords t) ((dats m 0 c).after 2 t) = _
  rw [after0_2]
  unfold out0_2
  rw [View.canon_unit_zero zeros3]
  simp only [View.ld_unit_zero (S := S64x176) zeros2, View.ld_unit_zero (S := S176x176) zeros2]
  obtain ⟨e0, e1, e2, e3, e4, e5, _⟩ := index_facts t
  funext y
  show k0_pay1 (iblk m c 0 t) (iblk m c 1 t) y
    = spreadLast (V m c main_arg0) (V m c main_v5) (((cfg0.win 2).blk t).view.emb y)
  refine (congrFun (payload_eq (iblk m c 0 t) (iblk m c 1 t)) y).trans ?_
  refine slab_eq_spread (V m c main_arg0) (V m c main_v5) (iblk m c 0 t) (iblk m c 1 t) y
    (((cfg0.win 2).blk t).view.emb y) ?_ ?_
  · show V m c main_arg0 (((cfg0.win 0).blk t).view.emb (ix2 (n0 := 64) (n1 := 176) (y 0) (y 1)))
      = V m c main_arg0 (ix2 ((((cfg0.win 2).blk t).view.emb y) 0) ((((cfg0.win 2).blk t).view.emb y) 1))
    refine congrArg (V m c main_arg0) ?_
    funext a; apply Fin.ext
    match a with
    | ⟨0, _⟩ => show win0_0.index t (0 : Fin 2) * 64 + 1 * (y 0).val = win0_2.index t (0 : Fin 3) * 64 + 1 * (y 0).val; omega
    | ⟨1, _⟩ => show win0_0.index t (1 : Fin 2) * 176 + 1 * (y 1).val = win0_2.index t (1 : Fin 3) * 176 + 1 * (y 1).val; omega
  · show V m c main_v5 (((cfg0.win 1).blk t).view.emb (ix2 (n0 := 176) (n1 := 176) (y 1) (y 2)))
      = V m c main_v5 (ix2 ((((cfg0.win 2).blk t).view.emb y) 1) ((((cfg0.win 2).blk t).view.emb y) 2))
    refine congrArg (V m c main_v5) ?_
    funext a; apply Fin.ext
    match a with
    | ⟨0, _⟩ => show win0_1.index t (0 : Fin 2) * 176 + 1 * (y 1).val = win0_2.index t (1 : Fin 3) * 176 + 1 * (y 1).val; omega
    | ⟨1, _⟩ => show win0_1.index t (1 : Fin 2) * 176 + 1 * (y 2).val = win0_2.index t (2 : Fin 3) * 176 + 1 * (y 2).val; omega

/-- An index of the result is in point t's slab iff each coordinate is in the slab's range on its axis. -/
theorem mem_slab (t : Fin cfg0.N) (i : S8192x176x176.Idx) :
    i ∈ ((cfg0.win 2).blk t).view.set ↔ ∀ a : Fin 3, win0_2.index t a * S64x176x176.size a ≤ (i a).val
      ∧ (i a).val < win0_2.index t a * S64x176x176.size a + S64x176x176.size a := by
  show i ∈ ((View.whole main_v6).slice (win0_2.rect t)).set ↔ _
  rw [View.set_slice_whole, Rect.mem_set_unit]
  exact Iff.rfl

/-- The slabs tile the result: row r lies in the slab of the point whose slab index is r / 64. -/
theorem covered (i : S8192x176x176.Idx) :
    ∃ t : Fin cfg0.N, (cfg0.win 2).flush t = true ∧ i ∈ ((cfg0.win 2).blk t).view.set := by
  have hi0 : (i 0).val < 8192 := (i 0).isLt
  have hi1 : (i 1).val < 176 := (i 1).isLt
  have hi2 : (i 2).val < 176 := (i 2).isLt
  obtain ⟨t, ht⟩ := index_onto ⟨(i 0).val / 64, by omega⟩
  have q0 : win0_2.index t (0 : Fin 3) = (i 0).val / 64 := congrFun ht 0
  have q1 : win0_2.index t (1 : Fin 3) = 0 := congrFun ht 1
  have q2 : win0_2.index t (2 : Fin 3) = 0 := congrFun ht 2
  refine ⟨t, flush0_2 t, ?_⟩
  rw [mem_slab]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 176 ≤ (i 1).val ∧ (i 1).val < win0_2.index t (1 : Fin 3) * 176 + 176; omega
  | ⟨2, _⟩ => show win0_2.index t (2 : Fin 3) * 176 ≤ (i 2).val ∧ (i 2).val < win0_2.index t (2 : Fin 3) * 176 + 176; omega

/-- THE RESULT ARRAY after the run: the launched x spread along the last axis against the counter matrix. -/
theorem final (c : Dev nD) :
    (dats m 0 c).arrAt 2 cfg0.N
      = spreadLast (m ((c : Thread nD τ).loc main_arg0)) (counterMatrix bcast_S_S176x176) := by
  rw [(dats m 0 c).arrAt_eq_of_cover 2 (spreadLast (V m c main_arg0) (V m c main_v5))
    (fun t _ => flushed_eq m c t) covered, V_main_arg0, entry_matrix]

/-- The run, read: the result at that array, the argument unchanged. -/
theorem run : θ_run defs (onTc (τ := τ) (main (F := Ideal))) ⟨m, fun _ => 0, ρ⟩ fun r => ∀ c : Dev nD,
      r.2.mem ((c : Thread nD τ).loc main_v6)
        = spreadLast (m ((c : Thread nD τ).loc main_arg0)) (counterMatrix bcast_S_S176x176)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Last

end
-- ==== Proof.lean ====
/-
  The diagonal embedding of a matrix: x of shape [8192, 176] goes to the array of shape [8192, 176, 176] whose entry
  (b, i, j) is x[b, ·] times the entry (i, j) of the 176 × 176 matrix e that is 1 where i = j and 0 elsewhere, which
  both programs build on the host by comparing a row counter with a column counter. The kernel, one grid point per 64
  rows of x, writes x[b, i] · e[i, j]; the reference writes x[b, j] · e[i, j]. On the diagonal the two read the same
  entry of x, and off it both are a product with 0, which is 0 for every extended real: so the two results are equal
  entry by entry, and the inputs' finiteness is not used.

  The kernel's result array is read off its run slab by slab (Proof/KernelLast.lean), the reference's off its run
  operation by operation (Proof/RefMiddle.lean); the law that joins them and the counter matrix's zeros are in
  Proof/DiagSpec.lean. The idealization rewrote nothing, so the kernel and its idealization are one text.
-/
import proofs.«159785_j41180146434078_1_alg».proof.Defs
import proofs.«159785_j41180146434078_1_alg».proof.Proof.Gen.Kernel
import proofs.«159785_j41180146434078_1_alg».proof.Proof.Gen.Kernel.Skeleton
import proofs.«159785_j41180146434078_1_alg».proof.Proof.Gen.Kernel.Launch
import proofs.«159785_j41180146434078_1_alg».proof.Proof.Gen.Kernel.Points
import proofs.«159785_j41180146434078_1_alg».proof.Proof.Gen.Kernel.Frame
import proofs.«159785_j41180146434078_1_alg».proof.Proof.Gen.KernelIdeal
import proofs.«159785_j41180146434078_1_alg».proof.Proof.Gen.KernelIdeal.Skeleton
import proofs.«159785_j41180146434078_1_alg».proof.Proof.Gen.KernelIdeal.Launch
import proofs.«159785_j41180146434078_1_alg».proof.Proof.Gen.KernelIdeal.Points
import proofs.«159785_j41180146434078_1_alg».proof.Proof.Gen.KernelIdeal.Frame
import proofs.«159785_j41180146434078_1_alg».proof.Proof.Gen.ReferenceIdeal
import proofs.«159785_j41180146434078_1_alg».proof.Proof.Gen.Pre_finite_inputs
import proofs.«159785_j41180146434078_1_alg».proof.Proof.Gen.KernelIdeal.Value
import proofs.«159785_j41180146434078_1_alg».proof.Proof.Gen.ReferenceIdeal.Run
import proofs.«159785_j41180146434078_1_alg».proof.Proof.Gen.ReferenceIdeal.Read
import proofs.«159785_j41180146434078_1_alg».proof.Proof.DiagSpec
import proofs.«159785_j41180146434078_1_alg».proof.Proof.RefMiddle
import proofs.«159785_j41180146434078_1_alg».proof.Proof.KernelLast
import Idealize.ShloMosaic.Adequacy
import Idealize.ShloMosaic.Init

noncomputable section

namespace Cert.Proof

open Idealize.ShloMosaic Idealize.SL.Sem Cert.DiagSpec

/-- The kernel as printed runs, and leaves its argument as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, the kernel ends with x spread along the last axis against the counter matrix, the
    reference with x spread along the middle axis against the same matrix; the matrix vanishes off its diagonal, so
    the two arrays are one. -/
theorem algebraic : Cert.algebraic_KernelIdeal_ReferenceIdeal := by
  intro m ρ m' ρ' _ hagree
  refine ⟨fun c => spreadLast (m ((c.tc : Thread Cert.KernelIdeal.nD Cert.KernelIdeal.τ).loc Cert.KernelIdeal.main_arg0))
      (counterMatrix Cert.KernelIdeal.Facts₀.bcast_S_S176x176), Cert.KernelIdeal.Last.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Middle.result_eq, hagree c]
  exact (spreadLast_eq_spreadMiddle _ _ (counterMatrix_off _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
